-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x128x1024 : Shape := ⟨3, ![8, 128, 1024]⟩
abbrev S1 : Shape := ⟨1, ![1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x128x1024 : S_.BroadcastsInDim S8x128x1024 (![] : Fin 0 → Fin S8x128x1024.rank)
  reducesTo_S8x128x1024_S_d0_1_2 : S8x128x1024.ReducesTo [0, 1, 2] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8x4096x1024 .f32) (main_arg1 : FVec F S8x128x1024 .f32) (main_arg2 : IVec S1 32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x128x1024 .f32 := Host.absf main_arg1
  let main_cst_0 : FVec F S_ .f32 := constant S_ .f32 0x7F800000#32
  let main_v5 : FVec F S8x128x1024 .f32 := broadcastInDim S8x128x1024 ![] bcast_S_S8x128x1024 main_cst_0
  let main_v6 : IVec S8x128x1024 1 := cmpf .olt main_v4 main_v5
  let main_c_1 : IVec S_ 1 := constantI S_ 1 1#1
  let main_v7 : IVec S_ 1 := (fun x v => Host.reduce IntOp.andi x v reducesTo_S8x128x1024_S_d0_1_2 h_S_) main_v6 main_c_1
  let main_v8 : IVec S_ 1 := andi main_v3 main_v7
  let main_c_2 : IVec S_ 32 := constantI S_ 32 0#32
  let main_v9 : IVec S1 32 := broadcastInDim S1 ![] bcast_S_S1 main_c_2
  let main_v10 : IVec S1 1 := cmpi .sge main_arg2 main_v9
  let main_c_3 : IVec S_ 32 := constantI S_ 32 3968#32
  let main_v11 : IVec S1 32 := broadcastInDim S1 ![] bcast_S_S1 main_c_3
  let main_v12 : IVec S1 1 := cmpi .sle main_arg2 main_v11
  let main_v13 : IVec S1 1 := andi main_v10 main_v12
  let main_c_4 : IVec S_ 1 := constantI S_ 1 1#1
  let main_v14 : IVec S_ 1 := (fun x v => Host.reduce IntOp.andi x v reducesTo_S1_S_d0 h_S_) main_v13 main_c_4
  let main_v15 : IVec S_ 1 := andi main_v8 main_v14
  main_v15
-- ==== Kernel.lean ====
abbrev S8x4096x1024 : Shape := ⟨3, ![8, 4096, 1024]⟩
abbrev S8x128x1024 : Shape := ⟨3, ![8, 128, 1024]⟩
abbrev S1 : Shape := ⟨1, ![1]⟩
abbrev S_ : Shape := ⟨0, ![]⟩

abbrev nBuf : Space → Nat
  | .hbm => 3
  | .vmem => 1
  | .smem => 1
  | _ => 0

abbrev bufTy : (tb : Table) → Fin (tcTables nBuf tb) → BufTy
  | .hbm, ⟨0, _⟩ => ⟨S8x4096x1024, .f32⟩
  | .hbm, ⟨1, _⟩ => ⟨S8x128x1024, .f32⟩
  | .hbm, ⟨2, _⟩ => ⟨S8x4096x1024, .f32⟩
  | .local _ .vmem, ⟨0, _⟩ => ⟨S8x128x1024, .f32⟩
  | .local _ .smem, ⟨0, _⟩ => ⟨S1, .i32⟩
  | _, _ => ⟨S8x4096x1024, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let c0_i32 : BitVec 32 := 0#32
  let c0_i32_0 : BitVec 32 := 0#32
  ![0, v0.toNat, 0]

def k0_chk1 (v0 : BitVec 32) : Prop :=
  (∀ a, (k0_off1 v0) a + S8x128x1024.size a ≤ S8x4096x1024.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S8x128x1024.size a ≤ S8x4096x1024.size a := fun v0 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

class Facts₀ : Prop where
  inb_S1_S1_0 : ∀ a, (![0] : Fin 1 → Nat) a + S1.size a ≤ S1.size a
  numel1_S1 : S1.numel = 1
  hcc0_scratch0 : 1 + S_.numel ≤ 2
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x128x1024.size a
  hwx0_0 : ∀ i : grid0.Coords, EltTy.bits .f32 = 32 ∨ (Rect.block (s := S8x128x1024) S8x128x1024.size (cc0_transform_0 i) (hinb0_0 i)).WholeWords (EltTy.packing .f32)

variable [Facts₀]

abbrev cc0_scratch0 : DmaSems sig S_ := SemArray.consecutive 1 S_ hcc0_scratch0

abbrev spec0_0 : Pipeline.WinSpec sig grid0.rank :=
  Pipeline.WinSpec.ofSpec (Memref.whole main_arg1) S8x128x1024.size reads0_0 false true 1 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_0 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S8x4096x1024 : Shape := ⟨3, ![8, 4096, 1024]⟩
abbrev S8x128x1024 : Shape := ⟨3, ![8, 128, 1024]⟩
abbrev S1 : Shape := ⟨1, ![1]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x128x1024, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_c_2 : Ref sig .tc := ⟨.hbm, 8, rfl⟩
abbrev main_v2 : Ref sig .tc := ⟨.hbm, 9, rfl⟩
abbrev main_c_3 : Ref sig .tc := ⟨.hbm, 10, rfl⟩
abbrev main_v3 : Ref sig .tc := ⟨.hbm, 11, rfl⟩
abbrev main_c_4 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_v6 : Ref sig .tc := ⟨.hbm, 16, rfl⟩
abbrev main_c_6 : Ref sig .tc := ⟨.hbm, 17, rfl⟩
abbrev main_c_7 : Ref sig .tc := ⟨.hbm, 18, rfl⟩
abbrev main_v7 : Ref sig .tc := ⟨.hbm, 19, rfl⟩
abbrev main_c_8 : Ref sig .tc := ⟨.hbm, 20, rfl⟩
abbrev main_c_9 : Ref sig .tc := ⟨.hbm, 21, rfl⟩
abbrev main_v8 : Ref sig .tc := ⟨.hbm, 22, rfl⟩
abbrev main_c_10 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]

class Facts₀ : Prop where
  shapeCasts_S1_S_ : S1.ShapeCasts S_
  updateFits_S8x4096x1024_S8x128x1024 : S8x4096x1024.Slices (fun _ => 0) S8x128x1024
  h_S_ : 0 < S_.numel

variable [Facts₀]

class Facts : Prop extends Facts₀ where

variable [Facts]
-- ==== Proof.Kernel.Body.lean ====
/-
  The kernel body of the in-place slice write, run once.

  The body reads one word `s` from the prefetched table (the start row), and copies its staged
  [8, 128, 1024] block of `value` into rows `s … s + 127` of the result's buffer (which @main filled
  with a copy of `cache` before the region), by one transfer on its own semaphore, waited for at once.
  The machine takes the step past the body's side condition only when `s + 128 ≤ 4096`; here that
  is a hypothesis about the word the table holds.

  What the body leaves: the table and the staged block as they were, the semaphore back at zero, and
  the result's buffer at its old contents except on the box of rows `s … s + 127`, where it holds
  the staged block: `updateSlice old block ![0, s, 0]`.
-/
import proofs.«424435_j55800215110244_1_alg».proof.Proof.Gen.Kernel.Launch
import proofs.«424435_j55800215110244_1_alg».proof.Proof.Gen.Kernel.Skeleton
import Idealize.ShloMosaic.Lib.Tactic
import Idealize.ShloMosaic.Lib.Pipeline.Kit
import Idealize.ShloMosaic.Lib.Pipeline.Value

noncomputable section

namespace Cert.Kernel.Scatter

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's, beside the counters a transfer's invariant draws its tokens from. -/
abbrev UU (nD : Nat) (τ : Topo) : Type := UR sig nD τ × Counters

local notation "𝕄" => MT nD τ sig Unit (Elt F) ℕ (UU nD τ) ℕ

/-- The contents type of a memref's buffer on core `c`, and that buffer held whole. -/
abbrev Cts (c : Dev nD) {sp : Space} {S : Shape} {e : EltTy} (M : Memref sig .tc sp S e) : Type :=
  Buf (Elt F) (M.view.loc (c : Thread nD τ))
abbrev holds (c : Dev nD) {sp : Space} {S : Shape} {e : EltTy} (M : Memref sig .tc sp S e) (f : Cts (F := F) c M) : sProp 𝕄 :=
  M.view.loc (c : Thread nD τ) ↦{fullShare} f

/-- The start row: the one word of the table, as the body's scalar load reads it. -/
abbrev startWord (c : Dev nD) (tb : Cts (F := F) c (Memref.whole main_arg2)) : BitVec 32 :=
  (Memref.whole main_arg2).view.readAt (Elt F) (Rect.unit (s := S1) ![0] S1.size inb_S1_S1_0).toLoadRect tb
    (Shape.Idx.first (numel1_S1.symm ▸ Nat.one_pos))

/-- The body's own semaphore: the scratch array's one cell. -/
abbrev copySem : SemLoc sig := .dma 1

/-- The result's buffer after the copy: the staged block written through the slice of rows
    `s … s + 127`, every other element as before. -/
def copied (c : Dev nD) (M0 : Memref sig .tc .vmem S8x128x1024 .f32) (tb : Cts (F := F) c (Memref.whole main_arg2))
    (blk : Cts (F := F) c M0) (old : Cts (F := F) c (Memref.whole main_v0)) (hs : k0_chk1 (startWord c tb)) :
    Cts (F := F) c (Memref.whole main_v0) :=
  View.write (Elt F) ((Memref.whole main_v0).slice (Rect.unit (s := S8x4096x1024) (k0_off1 (startWord c tb)) S8x128x1024.size
      (k0_off1_inb _ hs)) (fun _ => rfl)).view old (ReadAs.same.apply (View.read (Elt F) M0.view blk)) Finset.univ

/-- THE BODY. Holding the table, the staged block, the result's buffer, the semaphore at zero and
    the core's duties, with the start row inside the array (`hs`): the body runs to its return and hands
    all of it back, the result's buffer at `copied`. -/
theorem body_run (c : Dev nD) (i : grid0.Coords) (M0 : Memref sig .tc .vmem S8x128x1024 .f32) (h0 : M0.IsWhole)
    (tb : Cts (F := F) c (Memref.whole main_arg2)) (blk : Cts (F := F) c M0) (old : Cts (F := F) c (Memref.whole main_v0))
    (hs : k0_chk1 (startWord c tb)) (W : Waits sig Unit) (Q : PUnit → sProp 𝕄) :
    iprop(holds c (Memref.whole main_arg2) tb ∗ holds c M0 blk ∗ holds c (Memref.whole main_v0) old
      ∗ semVal ((c : Thread nD τ), copySem) 0 ∗ owes (c : Thread nD τ) 0 W
      ∗ (iprop(holds c (Memref.whole main_arg2) tb ∗ holds c M0 blk ∗ holds c (Memref.whole main_v0) (copied c M0 tb blk old hs)
            ∗ semVal ((c : Thread nD τ), copySem) 0 ∗ ∃ W', owes (c : Thread nD τ) 0 W') -∗ Q ⟨⟩))
    ⊢ wp frame (wpE (defs₀ (F := F)) Variants.none c none) Set.univ
        (cc0__scatter_kernel i (Memref.whole main_arg2) (Memref.isWhole_whole _) M0 h0 (Memref.whole main_v0) (Memref.isWhole_whole _)
          (Memref.whole main_v0) (Memref.isWhole_whole _) cc0_scratch0) Q := by
  iintro ⟨Htab, Hblk, Hres, Hsem, Hduty, Hcont⟩
  sl_exec!
  sl_step
  iapply Hcont
  isplitl [Htab]; · iexact Htab
  isplitl [Hblk]; · iexact Hblk
  isplitl [Hres]; · iexact Hres
  isplitl [Hsem]; · iexact Hsem
  iexists _; iexact Hduty

/-! ## The written buffer, index by index -/

/-- The copy as arithmetic on indices: `copied` is the old contents with the box of the block's shape at
    offsets `(0, s, 0)` replaced by the staged block. -/
theorem copied_eq (c : Dev nD) (M0 : Memref sig .tc .vmem S8x128x1024 .f32)
    (tb : Cts (F := F) c (Memref.whole main_arg2)) (blk : Cts (F := F) c M0) (old : Cts (F := F) c (Memref.whole main_v0))
    (hs : k0_chk1 (startWord c tb)) :
    copied c M0 tb blk old hs
      = updateSlice (s := S8x4096x1024) (u := S8x128x1024) old (View.read (Elt F) M0.view blk) (k0_off1 (startWord c tb)) ⟨rfl, hs⟩ :=
  View.write_whole_slice_unit (Val := Elt F) main_v0 (k0_off1 (startWord c tb)) S8x128x1024.size (k0_off1_inb _ hs) old _

end Cert.Kernel.Scatter

end
-- ==== Proof.Kernel.Data.lean ====
/-
  The pipeline's proof data for the one grid point, and the body obligation.

  @main first copies `cache` into the result's buffer, then runs the kernel region: one grid point,
  one input window (`value`, its block the whole array, staged in VMEM), the index word a prefetched
  table. Between the region's two ends the invariant holds what the body routes itself: the
  result's buffer, the table, the body's semaphore at zero. Before the point the result's buffer
  holds the copy of `cache`; after it, that copy with rows `s … s + 127` replaced by the staged block.
-/
import proofs.«424435_j55800215110244_1_alg».proof.Proof.Kernel.Body
import Idealize.ShloMosaic.Lib.Pipeline.Regions

noncomputable section

namespace Cert.Kernel.Scatter

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The buffers' contents at launch and at the region's entry -/

/-- Core `c`'s buffers as launched. -/
abbrev atLaunch (c : Dev nD) : Valuation τ sig (Elt F) := fun b => (s₀ m ρ).mem ((c : Dev nD), b)
/-- Core `c`'s buffers when the region is entered: the one host operation, the copy of `cache` into the
    result's buffer, has run. -/
abbrev atEntry (c : Dev nD) (b : Ref sig .tc) : Buf (Elt F) ((c : Thread nD τ).loc b) :=
  StableHlo.after hostOps0 (atLaunch m ρ c) b

/-- The copy writes the result's buffer only. -/
theorem copy_writes (b : Ref sig .tc) (hb : b ≠ main_v0) :
    ∀ op ∈ (hostOps0 (F := F)), Proc.devRef .tc b ∉ op.writes := by
  intro op hop
  obtain rfl : op = StableHlo.unary main_arg0 main_v0 id := by simpa using hop
  rw [StableHlo.unary_writes, Finset.mem_singleton]
  exact StableHlo.devRef_ne_of_ne hb

/-- So every argument reaches the region as launched, -/
theorem atEntry_arg (c : Dev nD) (b : Ref sig .tc) (hb : b ≠ main_v0) :
    atEntry m ρ c b = m ((c : Thread nD τ).loc b) :=
  StableHlo.after_of_forall_not_mem (b := Proc.devRef .tc b) hostOps0 (atLaunch m ρ c) (copy_writes b hb)

/-- and the result's buffer holds `cache`. -/
theorem atEntry_res (c : Dev nD) : atEntry m ρ c main_v0 = m ((c : Thread nD τ).loc main_arg0) := by
  show StableHlo.after hostOps0 (atLaunch m ρ c) (Proc.devRef .tc main_v0) = _
  after_results
  rfl

/-! ## The table, and the start row it holds -/

/-- The prefetched table's contents: the index array as launched (one device). -/
abbrev tab : pre0.Contents (Elt F) := fun k => m (((0 : Dev nD) : Thread nD τ).loc (pre0.ref k))

/-- The table admitted: the pipeline asks nothing of it (its one window's index map reads no table). -/
abbrev adm : (p : Fin 1) → (pcfgs (F := F) p).Adm := fun _ => ⟨tab m, trivial⟩

/-- The pipeline at that table. -/
abbrev cfgAt : Pipeline.Cfg sig Λ₀ := Pipeline.pin (pcfgs (F := F)) (adm m) 0

/-- The start row the table holds, as the body reads it on core `c`. -/
abbrev startAt (c : Dev nD) : BitVec 32 := startWord (F := F) c (m ((c : Thread nD τ).loc main_arg2))

/-- What the certificate's precondition gives of it: the 128 rows from the start row lie inside the 4096. -/
abbrev StartFits : Prop := ∀ c : Dev nD, k0_chk1 (startAt m c)

variable (hfit : StartFits m)

/-! ## The proof data -/

/-- The staged block: `value`'s one block, read off the array as the region finds it. -/
abbrev staged (c : Dev nD) : ((cfgAt m).win 0).block.Idx → Elt F ((cfgAt m).win 0).elt :=
  (((cfgAt m).win 0).blk t0_0).view.read (Elt F) (atEntry m ρ c (Pipeline.arrRef spec0 0))

/-- The result's buffer after the point: the copy of `cache` with the box of rows `s … s + 127` holding the
    staged block. -/
def result (c : Dev nD) : Cts (F := F) c (Memref.whole main_v0) :=
  updateSlice (s := S8x4096x1024) (u := S8x128x1024) (atEntry m ρ c main_v0) (staged m ρ c) (k0_off1 (startAt m c)) ⟨rfl, hfit c⟩

/-- The invariant with the result's buffer at `f`: that buffer, the table, the body's semaphore at zero, and
    the scoped buffers that are no staging buffer (none). -/
def inv (c : Dev nD) (f : Cts (F := F) c (Memref.whole main_v0)) : sProp 𝕄 :=
  iprop(holds c (Memref.whole main_v0) f ∗ holds c (Memref.whole main_arg2) (m ((c : Thread nD τ).loc main_arg2))
    ∗ semVal ((c : Thread nD τ), copySem) 0
    ∗ Pipeline.scopedRest (Ix := Unit) (Name := ℕ) (U := UU nD τ) (Lvl := ℕ) (Val := Elt F) spec0 c)

/-- The proof data on core `c`: `value` at its entry contents, its staging buffer left as fetched, the invariant
    before and after the one point, nothing owed. -/
def dats (p : Fin 1) (c : Dev nD) : Dat τ (Elt F) Unit ℕ (UU nD τ) ℕ (Pipeline.pin (pcfgs (F := F)) (adm m) p) c where
  A w := atEntry m ρ c (Pipeline.arrRef spec0 w)
  after w _ := match w with | ⟨0, _⟩ => staged m ρ c
  Φ k := match k with
    | ⟨0, _⟩ => inv m c (atEntry m ρ c main_v0)
    | ⟨_ + 1, _⟩ => inv m c (result m ρ hfit c)
  q _ := fullShare
  owed _ := 0

abbrev 𝒱₀ : Variants := Variants.none

/-- The staging buffer holds `value`'s block when the body runs: the one point fetches it. -/
theorem before_staged (c : Dev nD) (d : ((cfgAt m).win 0).block.Idx → Elt F ((cfgAt m).win 0).elt) :
    (dats m ρ hfit 0 c).before 0 t0_0 d = staged m ρ c := by
  have hfetch : ((Pipeline.pin (pcfgs (F := F)) (adm m) 0).win 0).fetch t0_0 = true := rfl
  unfold Dat.before; rw [if_pos hfetch]; rfl

/-- The staged block read back through its (whole) staging buffer is the staged block, so what the copy leaves is `result`. -/
theorem copied_staged (c : Dev nD) :
    copied c (stage0_0 0) (m ((c : Thread nD τ).loc main_arg2)) (staged m ρ c) (atEntry m ρ c main_v0) (hfit c) = result m ρ hfit c := by
  exact (copied_eq c (stage0_0 0) _ _ _ (hfit c)).trans rfl

/-! ## The body obligation -/

/-- At the one point: the invariant and the staging buffer taken apart, the body run, its post reassembled
    around the written result. -/
theorem body_obligation (c : Dev nD) : BodyObligation (dats m ρ hfit 0 c) (defs₀ (F := F)) 𝒱₀ () Set.univ := fun t => by
  obtain rfl := fin_N0 t
  -- the window has one staging buffer: its current slot is that one
  have hslot : (Pipeline.pin (pcfgs (F := F)) (adm m) 0).slots t0_0 0 = (0 : Fin 1) :=
    Fin.ext (Nat.lt_one_iff.mp ((Pipeline.pin (pcfgs (F := F)) (adm m) 0).slots t0_0 0).isLt)
  rw [bigSep_W0, bigSep_W0, hslot]
  simp only [owns_whole_eq]
  rw [show (dats m ρ hfit 0 c).Φ t0_0.castSucc = inv m c (atEntry m ρ c main_v0) from rfl,
    show (dats m ρ hfit 0 c).Φ t0_0.succ = inv m c (result m ρ hfit c) from rfl]
  unfold inv Dat.owesAt Pipeline.owesWithin; rw [scopedRest0_eq]
  rw [show (dats m ρ hfit 0 c).owed t0_0.castSucc = 0 from rfl, show (dats m ρ hfit 0 c).owed t0_0.succ = 0 from rfl]
  iintro ⟨⟨Hres, Htab, Hsem, -⟩, ⟨%W, %hW, Hduty⟩, ⟨%d, %blk, %hblk, Hblk⟩⟩
  obtain rfl : blk = staged m ρ c := hblk.trans (before_staged m ρ hfit c d)
  iapply (body_run c (grid0.coords t0_0) (stage0_0 0) (hstage0_0 0) (m ((c : Thread nD τ).loc main_arg2)) (staged m ρ c)
    (atEntry m ρ c main_v0) (hfit c) W)
  isplitl [Htab]; · iexact Htab
  isplitl [Hblk]; · iexact Hblk
  isplitl [Hres]; · iexact Hres
  isplitl [Hsem]; · iexact Hsem
  isplitl [Hduty]; · iexact Hduty
  iintro ⟨Htab, Hblk, Hres, Hsem, ⟨%W', Hduty⟩⟩
  rw [copied_staged]
  isplitl [Hres Htab Hsem]
  · isplitl [Hres]; · iexact Hres
    isplitl [Htab]; · iexact Htab
    isplitl [Hsem]; · iexact Hsem
    iempintro
  isplitl [Hduty]
  · iexists W'; isplitr; · ipureintro; exact fun _ _ => Or.inl trivial
    iexact Hduty
  iexists _; isplitr; swap; (· iexact Hblk); ipureintro; dsimp only [dats]

end Cert.Kernel.Scatter

end
-- ==== Proof.Kernel.Run.lean ====
/-
  The launch: @main as its host stretch and its one kernel region, and the run's final memory.

  @main is one host operation (the copy of `cache` into the result's buffer) and then the kernel
  region. The host stretch runs over the core's unscoped buffers held at the launch contents; the
  region is entered from what it leaves: `value` goes to the pipeline as its window's array, the
  index array is the prefetched table, the result's buffer and the body's semaphore enter the
  invariant, `cache` bypasses the region. At the end every argument is as launched and the result's
  buffer holds `result`: `cache` with rows `s … s + 127` replaced by `value`.
-/
import proofs.«424435_j55800215110244_1_alg».proof.Proof.Kernel.Data

noncomputable section

namespace Cert.Kernel.Scatter

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra sits in the left component of the certificate's. -/
abbrev EP : Emb (UR sig nD τ) (MT nD τ sig Unit (Elt F) ℕ (UU nD τ) ℕ) := embL

variable (m : (ℓ : Loc nD τ sig) → Buf (Elt F) ℓ) (ρ : Dev nD → PrngReg) (hfit : StartFits m)

/-! ## The host stretch's buffers -/

/-- The TensorCore's unscoped references as device buffers: what a host operation may touch. -/
def openRefs : Finset (DevRef τ sig) := (StableHlo.tcRefs τ sig).filter fun b => ¬ b.isScoped

omit [FloatOps F] in
/-- The unscoped buffers the launch deals, at a valuation, are those held at it. -/
theorem unscopedBufs_eq_held (c : Dev nD) (Wv : Valuation τ sig (Elt F)) :
    (unscopedBufs c (fun b => Wv b) : sProp 𝕄) = StableHlo.held (c : Thread nD τ) openRefs Wv := by
  unfold unscopedBufs StableHlo.held openRefs StableHlo.tcRefs
  rw [Finset.filter_map, bigSep_map]
  rfl

omit [FloatOps F] in
/-- A host operation names no scoped buffer. -/
theorem bufs_open (op : HloOp τ sig (Elt F)) (h : op.bufs ⊆ StableHlo.tcRefs τ sig) : op.bufs ⊆ openRefs := fun b hb =>
  Finset.mem_filter.mpr ⟨h hb, fun hsc => Bool.false_ne_true ((op.no_scoped b hb).symm.trans hsc)⟩

/-! ## The region's own semaphore, and the launch element -/

abbrev ownSem : Fin 1 → SemLoc sig := fun _ => copySem

/-- It is scoped, and no staging semaphore. -/
theorem ownSem_facts : Pipeline.OwnSemFacts spec0 ownSem := by decide

omit [FloatOps F] in
theorem ownSems0_one (c : Dev nD) :
    (Pipeline.ownSems0 (Ix := Unit) (Name := ℕ) (U := UU nD τ) (Lvl := ℕ) (Val := Elt F) (τ := τ) ownSem c : sProp 𝕄)
      = semVal ((c : Thread nD τ), copySem) 0 := by
  unfold Pipeline.ownSems0; rw [bigSep_W0]

/-- The launch element: the pipeline library's at the staging cell; no counter drawn yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

/-- No core owes another anything: no level is assigned. -/
abbrev L : GSem nD τ sig → Finset Unit := fun _ => ∅
abbrev lv : GSem nD τ sig → Unit → ℕ := fun _ _ => 0

/-- What rides beside the buffers: the core's duties, none. -/
abbrev duty (c : Dev nD) : sProp 𝕄 := iprop(∃ W, owes (c : Thread nD τ) (0 : CellTallies nD τ sig Unit) W)

/-! ## The segments -/

/-- The host stretch: the copy, over the unscoped buffers. -/
def hostSeg : Pipeline.HostSeg (Name := ℕ) (U := UU nD τ) (pcfgs (F := F)) defs₀ 𝒱₀ L lv :=
  Pipeline.HostSeg.ofOps _ _ _ _ _ openRefs hostOps0
    (fun op h => bufs_open op ((List.forall_iff_forall_mem.mp hostOps0_sub) op h))
    (by intro op h; obtain rfl : op = StableHlo.unary main_arg0 main_v0 id := by simpa using h
        rfl)
    (atLaunch m ρ) duty

/-- What the region leaves for the end: `value` at the pipeline's final contents, `cache` and the index array as they
    entered, the result's buffer at `result`. -/
abbrev atEnd (c : Dev nD) : sProp 𝕄 :=
  iprop((dats m ρ hfit 0 c).arrays ((dats m ρ hfit 0 c).arrAt · (Pipeline.pin (pcfgs (F := F)) (adm m) 0).N)
    ∗ (((c : Thread nD τ).loc main_arg0) ↦{fullShare} atEntry m ρ c main_arg0)
    ∗ holds c (Memref.whole main_arg2) (m ((c : Thread nD τ).loc main_arg2))
    ∗ holds c (Memref.whole main_v0) (result m ρ hfit c))

/-! ## The table at the region's entry -/

/-- The index array reaches the region as launched: the table the pipeline is pinned at. -/
theorem entry_tab (c : Dev nD) : (fun k => atEntry m ρ c (pre0.ref k)) = tab m := by
  obtain rfl : c = 0 := Subsingleton.elim _ _
  funext k
  exact atEntry_arg m ρ 0 (pre0.ref k) (by revert k; decide)

omit [FloatOps F] in
/-- Holding the (one) table is holding the index array's buffer. -/
theorem prefHeld_tab (c : Dev nD) :
    (Pipeline.prefHeld (Ix := Unit) (Name := ℕ) (U := UU nD τ) (Lvl := ℕ) pre0 c (fun _ => fullShare) (tab m) : sProp 𝕄)
      = holds c (Memref.whole main_arg2) (m ((c : Thread nD τ).loc main_arg2)) := by
  obtain rfl : c = 0 := Subsingleton.elim _ _
  unfold Pipeline.prefHeld; rw [bigSep_W0]; rfl

/-- The unscoped buffers that are not `value`: the table, `cache`, the result's buffer. -/
theorem rest_listed (c : Dev nD) :
    (Pipeline.unscopedRest (Ix := Unit) (Name := ℕ) (U := UU nD τ) (Lvl := ℕ) spec0 c (atEntry m ρ c) : sProp 𝕄)
      = iprop(holds c (Memref.whole main_arg2) (m ((c : Thread nD τ).loc main_arg2))
          ∗ (((c : Thread nD τ).loc main_arg0) ↦{fullShare} atEntry m ρ c main_arg0)
          ∗ (((c : Thread nD τ).loc main_v0) ↦{fullShare} atEntry m ρ c main_v0)) := by
  rw [Pipeline.unscopedRest_split preFacts0 c (atEntry m ρ c), unscopedRestP0_eq, entry_tab, prefHeld_tab]

set_option backward.isDefEq.respectTransparency.types false in
/-- The region: the decided layout, the body's semaphore, the body obligation; its entry sorts the buffers the host
    stretch left — `value` to the pipeline, the table to the table's place, the result's buffer and the semaphore
    into the invariant, `cache` past the region —, its exit gathers them again. -/
def regionSeg : Pipeline.RegionSeg (pcfgs (F := F)) (adm m) (dats m ρ hfit) () defs₀ 𝒱₀ L lv 0 where
  win := (launch0 (F := F)).win.to₀
  block_pos := (launch0 (F := F)).block_pos
  stage_whole := (launch0 (F := F)).stage_whole
  K := Fin 1
  osem := ownSem
  ho := ownSem_facts
  hbody c := (body_obligation m ρ hfit c).loose
  hwaits := Pipeline.hwaits_of_owed_zero _ _ _ _ L lv 0 fun _ _ => rfl
  pre c := iprop(StableHlo.held (c : Thread nD τ) openRefs (StableHlo.after hostOps0 (atLaunch m ρ c)) ∗ duty c)
  post c := iprop(atEnd m ρ hfit c ∗ duty c)
  X c := iprop(holds c (Memref.whole main_v0) (atEntry m ρ c main_v0) ∗ semVal ((c : Thread nD τ), copySem) 0)
  Y c := iprop(holds c (Memref.whole main_v0) (result m ρ hfit c) ∗ holds c (Memref.whole main_arg2) (m ((c : Thread nD τ).loc main_arg2)))
  Z c := ((c : Thread nD τ).loc main_arg0) ↦{fullShare} atEntry m ρ c main_arg0
  hentry c := by
    rw [show StableHlo.held (c : Thread nD τ) openRefs (StableHlo.after hostOps0 (atLaunch m ρ c)) = unscopedBufs c (atEntry m ρ c)
      from (unscopedBufs_eq_held c _).symm, ownSems0_one]
    have hsort := (Pipeline.arrays_of_unscopedBufs (pcfgs (F := F)) (adm m) (dats m ρ hfit) (launch0 (F := F)).win (launch0 (F := F)).arr_whole c
      ((dats m ρ hfit 0 c).share_full fun _ => rfl) (atEntry m ρ c) fun _ => rfl).trans
        (sep_mono .rfl (Entails.of_eq (rest_listed m ρ c)))
    iintro ⟨⟨Hbufs, Hduty⟩, Hsem, -⟩
    ihave H := hsort $$ Hbufs
    icases H with ⟨Hval, Htab, Hcache, Hres⟩
    imodintro
    isplitl [Hval]; · iexact Hval
    isplitl [Htab]; · rw [show ((adm m 0).1 : pre0.Contents (Elt F)) = tab m from rfl, prefHeld_tab]; iexact Htab
    isplitl [Hduty]
    · unfold Pipeline.Dat.owesAt Pipeline.owesWithin
      icases Hduty with ⟨%W, Hduty⟩; iexists W; isplitr; · ipureintro; exact fun _ _ => Or.inl trivial
      iexact Hduty
    isplitl [Hres Hsem]
    · isplitl [Hres]; · iexact Hres
      iexact Hsem
    iexact Hcache
  hin c := by
    rw [show (dats m ρ hfit 0 c).Φ 0 = inv m c (atEntry m ρ c main_v0) from rfl,
      show ((adm m 0).1 : pre0.Contents (Elt F)) = tab m from rfl, prefHeld_tab]
    unfold inv
    iintro ⟨⟨Hres, Hsem⟩, Htab, Hrest⟩
    isplitl [Hres]; · iexact Hres
    isplitl [Htab]; · iexact Htab
    isplitl [Hsem]; · iexact Hsem
    iexact Hrest
  hout c := by
    rw [ownSems0_one, show (dats m ρ hfit 0 c).Φ (Fin.last (Pipeline.pin (pcfgs (F := F)) (adm m) 0).N) = inv m c (result m ρ hfit c) from rfl]
    unfold inv
    iintro ⟨Hres, Htab, Hsem, Hrest⟩
    isplitl [Hres Htab]
    · isplitl [Hres]; · iexact Hres
      iexact Htab
    isplitl [Hsem]; · iexact Hsem
    iexact Hrest
  hexit c := by
    iintro ⟨Hval, Hduty, ⟨Hres, Htab⟩, Hcache⟩
    imodintro
    isplitr [Hduty]
    · isplitl [Hval]; · iexact Hval
      isplitl [Hcache]; · iexact Hcache
      isplitl [Htab]; · iexact Htab
      iexact Hres
    · unfold Pipeline.Dat.owesAt Pipeline.owesWithin
      icases Hduty with ⟨%W, -, Hduty⟩; iexists W; iexact Hduty

/-! ## The run -/

/-- @main as its two segments. -/
abbrev segs : List (Pipeline.Seg (pcfgs (F := F)) (adm m) (dats m ρ hfit) () defs₀ 𝒱₀ L lv) :=
  [.host (hostSeg m ρ), .region (regionSeg m ρ hfit)]

/-- `value`'s array is an input of the pipeline: it ends as it entered, which is as launched. -/
theorem value_kept (c : Dev nD) :
    (dats m ρ hfit 0 c).arrAt 0 (Pipeline.pin (pcfgs (F := F)) (adm m) 0).N = m ((c : Thread nD τ).loc main_arg1) :=
  ((dats m ρ hfit 0 c).arrAt_in 0 rfl _).trans (atEntry_arg m ρ c main_arg1 (by decide))

/-- What the run establishes of the final memory: the result's buffer at `result`, every argument as launched. -/
def Final : PUnit × MemSt nD τ sig (Elt F) → Prop := fun r =>
  ∀ c : Dev nD, r.2.mem ((c : Thread nD τ).loc main_v0) = result m ρ hfit c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
/-- From any memory with zero counters whose start row fits: every weakly fair execution of @main on the
    TensorCore terminates, nothing faulting, in a state satisfying `Final`. -/
theorem run_main : θ_run defs (onTc (τ := τ) (main (F := F))) (s₀ m ρ) (Final m ρ hfit) :=
  Pipeline.θ_run_regions_kit (pcfgs (F := F)) (adm m) (dats m ρ hfit) () (cellOf_inj (adm m)) EP defs₀ 𝒱₀ L lv m ρ main (segs m ρ hfit)
    (fun c Q => by rw [main_segs (adm m) (dats m ρ hfit) () 𝒱₀ L lv (hostSeg m ρ) (regionSeg m ρ hfit) rfl c])
    (by simp only [Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨Hpipe, -⟩
      imodintro
      isplitl [Hpipe]; · iexact Hpipe
      have hnone : (BI.emp : sProp 𝕄) ⊢ bigSep Finset.univ (fun _ : Dev nD => (BI.emp : sProp 𝕄)) := by
        rw [BI.bigSep_emp_const]
      iapply hnone; iempintro)
    (T₀ := fun c => iprop(StableHlo.held (c : Thread nD τ) openRefs (atLaunch m ρ c) ∗ duty c)) (Tₙ := atEnd m ρ hfit)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) openRefs (atLaunch m ρ c)
        from unscopedBufs_eq_held c (atLaunch m ρ c)]
      iintro ⟨⟨Hbufs, -, Hduty, -, -, -⟩, -⟩
      imodintro
      isplitl [Hbufs]; · iexact Hbufs
      iexists ∅; iexact Hduty)
    (QY := fun c s => s.mem ((c : Thread nD τ).loc main_v0) = result m ρ hfit c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [atEnd]; rw [atEntry_arg m ρ c main_arg0 (by decide)]
      iintro ⟨⟨Hval, Hcache, Htab, Hres⟩, HSI⟩
      icombine HSI Hcache gives %hcache
      icombine HSI Htab gives %htab
      icombine HSI Hres gives %hres
      ihave Hr := (Pipeline.arrays_read (pcfgs (F := F)) (adm m) (dats m ρ hfit) (launch0 (F := F)).arr_whole c
        ((dats m ρ hfit 0 c).share_full fun _ => rfl) _ s') $$ [Hval HSI]
      · isplitl [Hval] <;> iassumption
      icases Hr with ⟨%hval, HSI⟩
      imodintro
      isplitr
      · ipureintro
        exact ⟨Buf.eq_of_forall_mem_univ hres, Buf.eq_of_forall_mem_univ hcache, (hval 0).trans (value_kept m ρ hfit c),
          Buf.eq_of_forall_mem_univ htab⟩
      iexact HSI)
    (hQ := fun _ h => h)

end Cert.Kernel.Scatter

end
-- ==== Proof.Start.lean ====
/-
  The start row the precondition admits.

  Besides finiteness of the two float arrays the precondition says of the one index word `s` that
  `0 ≤ s` and `s ≤ 4096 − 128 = 3968` (signed compares, each against a broadcast constant, joined by `and`
  and reduced over the one element). Read back at the element: the word is a natural number at most
  3968, the same signed and unsigned, so the box of 128 rows from row `s` lies inside the 4096 rows.
-/
import proofs.«424435_j55800215110244_1_alg».proof.Pre_finite_inputs
import Idealize.ShloMosaic.Lib.ReduceAll
import Idealize.ShloMosaic.Lib.Affine

namespace Cert.StartRow

open Idealize.ShloMosaic Cert.Pre_finite_inputs

variable {F : FTy → Type} [FloatOps F] [Cert.Pre_finite_inputs.Facts]

instance : Subsingleton S_.Idx := ⟨fun a b => funext fun d => d.elim0⟩

/-- Under the precondition every element of the index array (there is one) reads, signed, between 0 and 3968. -/
theorem signed_range (a0 : FVec F S8x4096x1024 .f32) (a1 : FVec F S8x128x1024 .f32) (a2 : IVec S1 32)
    (h : Cert.Pre_finite_inputs.fn (F := F) a0 a1 a2 = fun _ => 1#1) (y : S1.Idx) :
    0 ≤ (a2 y).toInt ∧ (a2 y).toInt ≤ 3968 := by
  have e := congrFun h (Shape.Idx.first Facts.h_S_)
  dsimp only [Cert.Pre_finite_inputs.fn] at e
  obtain ⟨-, eall⟩ := IntOp.andi_eq_one.1 e
  have ey := Host.reduce_andi_all _ _ _ _ _ eall y
  obtain ⟨hge, hle⟩ := IntOp.andi_eq_one.1 ey
  -- a broadcast scalar constant reads the constant at every index
  have h0 : (0#32 : BitVec 32).toInt ≤ (a2 y).toInt := IntOp.cmpi_sge.1 hge
  have h1 : (a2 y).toInt ≤ (3968#32 : BitVec 32).toInt := IntOp.cmpi_sle.1 hle
  rw [show (0#32 : BitVec 32).toInt = 0 from by decide] at h0
  rw [show (3968#32 : BitVec 32).toInt = 3968 from by decide] at h1
  exact ⟨h0, h1⟩

/-- So the word is at most 3968 read unsigned too. -/
theorem toNat_le (a0 : FVec F S8x4096x1024 .f32) (a1 : FVec F S8x128x1024 .f32) (a2 : IVec S1 32)
    (h : Cert.Pre_finite_inputs.fn (F := F) a0 a1 a2 = fun _ => 1#1) (y : S1.Idx) :
    (a2 y).toNat ≤ 3968 := by
  obtain ⟨h0, h1⟩ := signed_range a0 a1 a2 h y
  have hlt := (a2 y).isLt
  rw [BitVec.toInt_eq_toNat_cond] at h0 h1
  split at h0 <;> omega

/-- and its signed reading is its unsigned one. -/
theorem toInt_eq (a0 : FVec F S8x4096x1024 .f32) (a1 : FVec F S8x128x1024 .f32) (a2 : IVec S1 32)
    (h : Cert.Pre_finite_inputs.fn (F := F) a0 a1 a2 = fun _ => 1#1) (y : S1.Idx) :
    (a2 y).toInt = ((a2 y).toNat : Int) := by
  have := toNat_le a0 a1 a2 h y
  exact BitVec.toInt_eq_toNat_of_lt (by omega)

end Cert.StartRow
-- ==== Proof.Kernel.Fits.lean ====
/-
  The precondition gives the body its side condition.

  The body assumes of the start row `s` it reads that the box of `value`'s shape at offsets `(0, s, 0)`
  lies inside `cache`'s shape: `0 + 8 ≤ 8`, `s + 128 ≤ 4096`, `0 + 1024 ≤ 1024`. The precondition bounds
  the index array's one word by 3968, read unsigned; the word the body's scalar load reads is that word.
-/
import proofs.«424435_j55800215110244_1_alg».proof.Proof.Kernel.Data
import proofs.«424435_j55800215110244_1_alg».proof.Proof.Start

namespace Cert.Kernel.Scatter

open Cert.Kernel Cert.Kernel.Gen

open Idealize.ShloMosaic Idealize.ShloMosaic.TcCoe

variable {F : FTy → Type} [FloatOps F]

instance : Subsingleton S1.Idx := ⟨fun a b => funext fun d => by
  fin_cases d; exact Fin.ext ((Nat.lt_one_iff.mp (a 0).isLt).trans (Nat.lt_one_iff.mp (b 0).isLt).symm)⟩

/-- The word the body's load reads is the index array's element (there is one). -/
theorem startWord_eq (c : Dev nD) (tb : Cts (F := F) c (Memref.whole main_arg2)) (y : S1.Idx) : startWord c tb = tb y := by
  show tb _ = tb y
  exact congrArg tb (@Subsingleton.elim S1.Idx inferInstance _ _)

/-- A start row at most 3968 fits. -/
theorem fits_of_le (w : BitVec 32) (hw : w.toNat ≤ 3968) : k0_chk1 w := by
  intro a
  fin_cases a
  · show 0 + 8 ≤ 8; omega
  · show w.toNat + 128 ≤ 4096; omega
  · show 0 + 1024 ≤ 1024; omega

variable (m : (ℓ : Loc nD τ sig) → Buf (Elt F) ℓ)

/-- Under the precondition the start row fits, on every core. -/
theorem startFits_of_pre [Cert.Pre_finite_inputs.Facts]
    (hpre : ∀ c : Dev nD, Cert.Pre_finite_inputs.fn (F := F) (m ((c : Thread nD τ).loc main_arg0)) (m ((c : Thread nD τ).loc main_arg1))
      (m ((c : Thread nD τ).loc main_arg2)) = fun _ => 1#1) : StartFits m := fun c => by
  have y : S1.Idx := fun a => ⟨0, by fin_cases a; exact Nat.one_pos⟩
  show k0_chk1 (startWord c (m ((c : Thread nD τ).loc main_arg2)))
  rw [startWord_eq c _ y]
  exact fits_of_le _ (Cert.StartRow.toNat_le _ _ _ (hpre c) y)

end Cert.Kernel.Scatter
-- ==== Proof.KernelIdeal.Body.lean ====
/-
  The kernel body of the in-place slice write, run once.

  The body reads one word `s` from the prefetched table (the start row), and copies its staged
  [8, 128, 1024] block of `value` into rows `s … s + 127` of the result's buffer (which @main filled
  with a copy of `cache` before the region), by one transfer on its own semaphore, waited for at once.
  The machine takes the step past the body's side condition only when `s + 128 ≤ 4096`; here that
  is a hypothesis about the word the table holds.

  What the body leaves: the table and the staged block as they were, the semaphore back at zero, and
  the result's buffer at its old contents except on the box of rows `s … s + 127`, where it holds
  the staged block: `updateSlice old block ![0, s, 0]`.
-/
import proofs.«424435_j55800215110244_1_alg».proof.Proof.Gen.KernelIdeal.Launch
import proofs.«424435_j55800215110244_1_alg».proof.Proof.Gen.KernelIdeal.Skeleton
import Idealize.ShloMosaic.Lib.Tactic
import Idealize.ShloMosaic.Lib.Pipeline.Kit
import Idealize.ShloMosaic.Lib.Pipeline.Value

noncomputable section

namespace Cert.KernelIdeal.Scatter

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's, beside the counters a transfer's invariant draws its tokens from. -/
abbrev UU (nD : Nat) (τ : Topo) : Type := UR sig nD τ × Counters

local notation "𝕄" => MT nD τ sig Unit (Elt F) ℕ (UU nD τ) ℕ

/-- The contents type of a memref's buffer on core `c`, and that buffer held whole. -/
abbrev Cts (c : Dev nD) {sp : Space} {S : Shape} {e : EltTy} (M : Memref sig .tc sp S e) : Type :=
  Buf (Elt F) (M.view.loc (c : Thread nD τ))
abbrev holds (c : Dev nD) {sp : Space} {S : Shape} {e : EltTy} (M : Memref sig .tc sp S e) (f : Cts (F := F) c M) : sProp 𝕄 :=
  M.view.loc (c : Thread nD τ) ↦{fullShare} f

/-- The start row: the one word of the table, as the body's scalar load reads it. -/
abbrev startWord (c : Dev nD) (tb : Cts (F := F) c (Memref.whole main_arg2)) : BitVec 32 :=
  (Memref.whole main_arg2).view.readAt (Elt F) (Rect.unit (s := S1) ![0] S1.size inb_S1_S1_0).toLoadRect tb
    (Shape.Idx.first (numel1_S1.symm ▸ Nat.one_pos))

/-- The body's own semaphore: the scratch array's one cell. -/
abbrev copySem : SemLoc sig := .dma 1

/-- The result's buffer after the copy: the staged block written through the slice of rows
    `s … s + 127`, every other element as before. -/
def copied (c : Dev nD) (M0 : Memref sig .tc .vmem S8x128x1024 .f32) (tb : Cts (F := F) c (Memref.whole main_arg2))
    (blk : Cts (F := F) c M0) (old : Cts (F := F) c (Memref.whole main_v0)) (hs : k0_chk1 (startWord c tb)) :
    Cts (F := F) c (Memref.whole main_v0) :=
  View.write (Elt F) ((Memref.whole main_v0).slice (Rect.unit (s := S8x4096x1024) (k0_off1 (startWord c tb)) S8x128x1024.size
      (k0_off1_inb _ hs)) (fun _ => rfl)).view old (ReadAs.same.apply (View.read (Elt F) M0.view blk)) Finset.univ

/-- THE BODY. Holding the table, the staged block, the result's buffer, the semaphore at zero and
    the core's duties, with the start row inside the array (`hs`): the body runs to its return and hands
    all of it back, the result's buffer at `copied`. -/
theorem body_run (c : Dev nD) (i : grid0.Coords) (M0 : Memref sig .tc .vmem S8x128x1024 .f32) (h0 : M0.IsWhole)
    (tb : Cts (F := F) c (Memref.whole main_arg2)) (blk : Cts (F := F) c M0) (old : Cts (F := F) c (Memref.whole main_v0))
    (hs : k0_chk1 (startWord c tb)) (W : Waits sig Unit) (Q : PUnit → sProp 𝕄) :
    iprop(holds c (Memref.whole main_arg2) tb ∗ holds c M0 blk ∗ holds c (Memref.whole main_v0) old
      ∗ semVal ((c : Thread nD τ), copySem) 0 ∗ owes (c : Thread nD τ) 0 W
      ∗ (iprop(holds c (Memref.whole main_arg2) tb ∗ holds c M0 blk ∗ holds c (Memref.whole main_v0) (copied c M0 tb blk old hs)
            ∗ semVal ((c : Thread nD τ), copySem) 0 ∗ ∃ W', owes (c : Thread nD τ) 0 W') -∗ Q ⟨⟩))
    ⊢ wp frame (wpE (defs₀ (F := F)) Variants.none c none) Set.univ
        (cc0__scatter_kernel i (Memref.whole main_arg2) (Memref.isWhole_whole _) M0 h0 (Memref.whole main_v0) (Memref.isWhole_whole _)
          (Memref.whole main_v0) (Memref.isWhole_whole _) cc0_scratch0) Q := by
  iintro ⟨Htab, Hblk, Hres, Hsem, Hduty, Hcont⟩
  sl_exec!
  sl_step
  iapply Hcont
  isplitl [Htab]; · iexact Htab
  isplitl [Hblk]; · iexact Hblk
  isplitl [Hres]; · iexact Hres
  isplitl [Hsem]; · iexact Hsem
  iexists _; iexact Hduty

/-! ## The written buffer, index by index -/

/-- The copy as arithmetic on indices: `copied` is the old contents with the box of the block's shape at
    offsets `(0, s, 0)` replaced by the staged block. -/
theorem copied_eq (c : Dev nD) (M0 : Memref sig .tc .vmem S8x128x1024 .f32)
    (tb : Cts (F := F) c (Memref.whole main_arg2)) (blk : Cts (F := F) c M0) (old : Cts (F := F) c (Memref.whole main_v0))
    (hs : k0_chk1 (startWord c tb)) :
    copied c M0 tb blk old hs
      = updateSlice (s := S8x4096x1024) (u := S8x128x1024) old (View.read (Elt F) M0.view blk) (k0_off1 (startWord c tb)) ⟨rfl, hs⟩ :=
  View.write_whole_slice_unit (Val := Elt F) main_v0 (k0_off1 (startWord c tb)) S8x128x1024.size (k0_off1_inb _ hs) old _

end Cert.KernelIdeal.Scatter

end
-- ==== Proof.KernelIdeal.Data.lean ====
/-
  The pipeline's proof data for the one grid point, and the body obligation.

  @main first copies `cache` into the result's buffer, then runs the kernel region: one grid point,
  one input window (`value`, its block the whole array, staged in VMEM), the index word a prefetched
  table. Between the region's two ends the invariant holds what the body routes itself: the
  result's buffer, the table, the body's semaphore at zero. Before the point the result's buffer
  holds the copy of `cache`; after it, that copy with rows `s … s + 127` replaced by the staged block.
-/
import proofs.«424435_j55800215110244_1_alg».proof.Proof.KernelIdeal.Body
import Idealize.ShloMosaic.Lib.Pipeline.Regions

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The buffers' contents at launch and at the region's entry -/

/-- Core `c`'s buffers as launched. -/
abbrev atLaunch (c : Dev nD) : Valuation τ sig (Elt F) := fun b => (s₀ m ρ).mem ((c : Dev nD), b)
/-- Core `c`'s buffers when the region is entered: the one host operation, the copy of `cache` into the
    result's buffer, has run. -/
abbrev atEntry (c : Dev nD) (b : Ref sig .tc) : Buf (Elt F) ((c : Thread nD τ).loc b) :=
  StableHlo.after hostOps0 (atLaunch m ρ c) b

/-- The copy writes the result's buffer only. -/
theorem copy_writes (b : Ref sig .tc) (hb : b ≠ main_v0) :
    ∀ op ∈ (hostOps0 (F := F)), Proc.devRef .tc b ∉ op.writes := by
  intro op hop
  obtain rfl : op = StableHlo.unary main_arg0 main_v0 id := by simpa using hop
  rw [StableHlo.unary_writes, Finset.mem_singleton]
  exact StableHlo.devRef_ne_of_ne hb

/-- So every argument reaches the region as launched, -/
theorem atEntry_arg (c : Dev nD) (b : Ref sig .tc) (hb : b ≠ main_v0) :
    atEntry m ρ c b = m ((c : Thread nD τ).loc b) :=
  StableHlo.after_of_forall_not_mem (b := Proc.devRef .tc b) hostOps0 (atLaunch m ρ c) (copy_writes b hb)

/-- and the result's buffer holds `cache`. -/
theorem atEntry_res (c : Dev nD) : atEntry m ρ c main_v0 = m ((c : Thread nD τ).loc main_arg0) := by
  show StableHlo.after hostOps0 (atLaunch m ρ c) (Proc.devRef .tc main_v0) = _
  after_results
  rfl

/-! ## The table, and the start row it holds -/

/-- The prefetched table's contents: the index array as launched (one device). -/
abbrev tab : pre0.Contents (Elt F) := fun k => m (((0 : Dev nD) : Thread nD τ).loc (pre0.ref k))

/-- The table admitted: the pipeline asks nothing of it (its one window's index map reads no table). -/
abbrev adm : (p : Fin 1) → (pcfgs (F := F) p).Adm := fun _ => ⟨tab m, trivial⟩

/-- The pipeline at that table. -/
abbrev cfgAt : Pipeline.Cfg sig Λ₀ := Pipeline.pin (pcfgs (F := F)) (adm m) 0

/-- The start row the table holds, as the body reads it on core `c`. -/
abbrev startAt (c : Dev nD) : BitVec 32 := startWord (F := F) c (m ((c : Thread nD τ).loc main_arg2))

/-- What the certificate's precondition gives of it: the 128 rows from the start row lie inside the 4096. -/
abbrev StartFits : Prop := ∀ c : Dev nD, k0_chk1 (startAt m c)

variable (hfit : StartFits m)

/-! ## The proof data -/

/-- The staged block: `value`'s one block, read off the array as the region finds it. -/
abbrev staged (c : Dev nD) : ((cfgAt m).win 0).block.Idx → Elt F ((cfgAt m).win 0).elt :=
  (((cfgAt m).win 0).blk t0_0).view.read (Elt F) (atEntry m ρ c (Pipeline.arrRef spec0 0))

/-- The result's buffer after the point: the copy of `cache` with the box of rows `s … s + 127` holding the
    staged block. -/
def result (c : Dev nD) : Cts (F := F) c (Memref.whole main_v0) :=
  updateSlice (s := S8x4096x1024) (u := S8x128x1024) (atEntry m ρ c main_v0) (staged m ρ c) (k0_off1 (startAt m c)) ⟨rfl, hfit c⟩

/-- The invariant with the result's buffer at `f`: that buffer, the table, the body's semaphore at zero, and
    the scoped buffers that are no staging buffer (none). -/
def inv (c : Dev nD) (f : Cts (F := F) c (Memref.whole main_v0)) : sProp 𝕄 :=
  iprop(holds c (Memref.whole main_v0) f ∗ holds c (Memref.whole main_arg2) (m ((c : Thread nD τ).loc main_arg2))
    ∗ semVal ((c : Thread nD τ), copySem) 0
    ∗ Pipeline.scopedRest (Ix := Unit) (Name := ℕ) (U := UU nD τ) (Lvl := ℕ) (Val := Elt F) spec0 c)

/-- The proof data on core `c`: `value` at its entry contents, its staging buffer left as fetched, the invariant
    before and after the one point, nothing owed. -/
def dats (p : Fin 1) (c : Dev nD) : Dat τ (Elt F) Unit ℕ (UU nD τ) ℕ (Pipeline.pin (pcfgs (F := F)) (adm m) p) c where
  A w := atEntry m ρ c (Pipeline.arrRef spec0 w)
  after w _ := match w with | ⟨0, _⟩ => staged m ρ c
  Φ k := match k with
    | ⟨0, _⟩ => inv m c (atEntry m ρ c main_v0)
    | ⟨_ + 1, _⟩ => inv m c (result m ρ hfit c)
  q _ := fullShare
  owed _ := 0

abbrev 𝒱₀ : Variants := Variants.none

/-- The staging buffer holds `value`'s block when the body runs: the one point fetches it. -/
theorem before_staged (c : Dev nD) (d : ((cfgAt m).win 0).block.Idx → Elt F ((cfgAt m).win 0).elt) :
    (dats m ρ hfit 0 c).before 0 t0_0 d = staged m ρ c := by
  have hfetch : ((Pipeline.pin (pcfgs (F := F)) (adm m) 0).win 0).fetch t0_0 = true := rfl
  unfold Dat.before; rw [if_pos hfetch]; rfl

/-- The staged block read back through its (whole) staging buffer is the staged block, so what the copy leaves is `result`. -/
theorem copied_staged (c : Dev nD) :
    copied c (stage0_0 0) (m ((c : Thread nD τ).loc main_arg2)) (staged m ρ c) (atEntry m ρ c main_v0) (hfit c) = result m ρ hfit c := by
  exact (copied_eq c (stage0_0 0) _ _ _ (hfit c)).trans rfl

/-! ## The body obligation -/

/-- At the one point: the invariant and the staging buffer taken apart, the body run, its post reassembled
    around the written result. -/
theorem body_obligation (c : Dev nD) : BodyObligation (dats m ρ hfit 0 c) (defs₀ (F := F)) 𝒱₀ () Set.univ := fun t => by
  obtain rfl := fin_N0 t
  -- the window has one staging buffer: its current slot is that one
  have hslot : (Pipeline.pin (pcfgs (F := F)) (adm m) 0).slots t0_0 0 = (0 : Fin 1) :=
    Fin.ext (Nat.lt_one_iff.mp ((Pipeline.pin (pcfgs (F := F)) (adm m) 0).slots t0_0 0).isLt)
  rw [bigSep_W0, bigSep_W0, hslot]
  simp only [owns_whole_eq]
  rw [show (dats m ρ hfit 0 c).Φ t0_0.castSucc = inv m c (atEntry m ρ c main_v0) from rfl,
    show (dats m ρ hfit 0 c).Φ t0_0.succ = inv m c (result m ρ hfit c) from rfl]
  unfold inv Dat.owesAt Pipeline.owesWithin; rw [scopedRest0_eq]
  rw [show (dats m ρ hfit 0 c).owed t0_0.castSucc = 0 from rfl, show (dats m ρ hfit 0 c).owed t0_0.succ = 0 from rfl]
  iintro ⟨⟨Hres, Htab, Hsem, -⟩, ⟨%W, %hW, Hduty⟩, ⟨%d, %blk, %hblk, Hblk⟩⟩
  obtain rfl : blk = staged m ρ c := hblk.trans (before_staged m ρ hfit c d)
  iapply (body_run c (grid0.coords t0_0) (stage0_0 0) (hstage0_0 0) (m ((c : Thread nD τ).loc main_arg2)) (staged m ρ c)
    (atEntry m ρ c main_v0) (hfit c) W)
  isplitl [Htab]; · iexact Htab
  isplitl [Hblk]; · iexact Hblk
  isplitl [Hres]; · iexact Hres
  isplitl [Hsem]; · iexact Hsem
  isplitl [Hduty]; · iexact Hduty
  iintro ⟨Htab, Hblk, Hres, Hsem, ⟨%W', Hduty⟩⟩
  rw [copied_staged]
  isplitl [Hres Htab Hsem]
  · isplitl [Hres]; · iexact Hres
    isplitl [Htab]; · iexact Htab
    isplitl [Hsem]; · iexact Hsem
    iempintro
  isplitl [Hduty]
  · iexists W'; isplitr; · ipureintro; exact fun _ _ => Or.inl trivial
    iexact Hduty
  iexists _; isplitr; swap; (· iexact Hblk); ipureintro; dsimp only [dats]

end Cert.KernelIdeal.Scatter

end
-- ==== Proof.KernelIdeal.Fits.lean ====
/-
  The precondition gives the body its side condition.

  The body assumes of the start row `s` it reads that the box of `value`'s shape at offsets `(0, s, 0)`
  lies inside `cache`'s shape: `0 + 8 ≤ 8`, `s + 128 ≤ 4096`, `0 + 1024 ≤ 1024`. The precondition bounds
  the index array's one word by 3968, read unsigned; the word the body's scalar load reads is that word.
-/
import proofs.«424435_j55800215110244_1_alg».proof.Proof.KernelIdeal.Data
import proofs.«424435_j55800215110244_1_alg».proof.Proof.Start

namespace Cert.KernelIdeal.Scatter

open Cert.KernelIdeal Cert.KernelIdeal.Gen

open Idealize.ShloMosaic Idealize.ShloMosaic.TcCoe

variable {F : FTy → Type} [FloatOps F]

instance : Subsingleton S1.Idx := ⟨fun a b => funext fun d => by
  fin_cases d; exact Fin.ext ((Nat.lt_one_iff.mp (a 0).isLt).trans (Nat.lt_one_iff.mp (b 0).isLt).symm)⟩

/-- The word the body's load reads is the index array's element (there is one). -/
theorem startWord_eq (c : Dev nD) (tb : Cts (F := F) c (Memref.whole main_arg2)) (y : S1.Idx) : startWord c tb = tb y := by
  show tb _ = tb y
  exact congrArg tb (@Subsingleton.elim S1.Idx inferInstance _ _)

/-- A start row at most 3968 fits. -/
theorem fits_of_le (w : BitVec 32) (hw : w.toNat ≤ 3968) : k0_chk1 w := by
  intro a
  fin_cases a
  · show 0 + 8 ≤ 8; omega
  · show w.toNat + 128 ≤ 4096; omega
  · show 0 + 1024 ≤ 1024; omega

variable (m : (ℓ : Loc nD τ sig) → Buf (Elt F) ℓ)

/-- Under the precondition the start row fits, on every core. -/
theorem startFits_of_pre [Cert.Pre_finite_inputs.Facts]
    (hpre : ∀ c : Dev nD, Cert.Pre_finite_inputs.fn (F := F) (m ((c : Thread nD τ).loc main_arg0)) (m ((c : Thread nD τ).loc main_arg1))
      (m ((c : Thread nD τ).loc main_arg2)) = fun _ => 1#1) : StartFits m := fun c => by
  have y : S1.Idx := fun a => ⟨0, by fin_cases a; exact Nat.one_pos⟩
  show k0_chk1 (startWord c (m ((c : Thread nD τ).loc main_arg2)))
  rw [startWord_eq c _ y]
  exact fits_of_le _ (Cert.StartRow.toNat_le _ _ _ (hpre c) y)

end Cert.KernelIdeal.Scatter
-- ==== Proof.KernelIdeal.Run.lean ====
/-
  The launch: @main as its host stretch and its one kernel region, and the run's final memory.

  @main is one host operation (the copy of `cache` into the result's buffer) and then the kernel
  region. The host stretch runs over the core's unscoped buffers held at the launch contents; the
  region is entered from what it leaves: `value` goes to the pipeline as its window's array, the
  index array is the prefetched table, the result's buffer and the body's semaphore enter the
  invariant, `cache` bypasses the region. At the end every argument is as launched and the result's
  buffer holds `result`: `cache` with rows `s … s + 127` replaced by `value`.
-/
import proofs.«424435_j55800215110244_1_alg».proof.Proof.KernelIdeal.Data

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra sits in the left component of the certificate's. -/
abbrev EP : Emb (UR sig nD τ) (MT nD τ sig Unit (Elt F) ℕ (UU nD τ) ℕ) := embL

variable (m : (ℓ : Loc nD τ sig) → Buf (Elt F) ℓ) (ρ : Dev nD → PrngReg) (hfit : StartFits m)

/-! ## The host stretch's buffers -/

/-- The TensorCore's unscoped references as device buffers: what a host operation may touch. -/
def openRefs : Finset (DevRef τ sig) := (StableHlo.tcRefs τ sig).filter fun b => ¬ b.isScoped

omit [FloatOps F] in
/-- The unscoped buffers the launch deals, at a valuation, are those held at it. -/
theorem unscopedBufs_eq_held (c : Dev nD) (Wv : Valuation τ sig (Elt F)) :
    (unscopedBufs c (fun b => Wv b) : sProp 𝕄) = StableHlo.held (c : Thread nD τ) openRefs Wv := by
  unfold unscopedBufs StableHlo.held openRefs StableHlo.tcRefs
  rw [Finset.filter_map, bigSep_map]
  rfl

omit [FloatOps F] in
/-- A host operation names no scoped buffer. -/
theorem bufs_open (op : HloOp τ sig (Elt F)) (h : op.bufs ⊆ StableHlo.tcRefs τ sig) : op.bufs ⊆ openRefs := fun b hb =>
  Finset.mem_filter.mpr ⟨h hb, fun hsc => Bool.false_ne_true ((op.no_scoped b hb).symm.trans hsc)⟩

/-! ## The region's own semaphore, and the launch element -/

abbrev ownSem : Fin 1 → SemLoc sig := fun _ => copySem

/-- It is scoped, and no staging semaphore. -/
theorem ownSem_facts : Pipeline.OwnSemFacts spec0 ownSem := by decide

omit [FloatOps F] in
theorem ownSems0_one (c : Dev nD) :
    (Pipeline.ownSems0 (Ix := Unit) (Name := ℕ) (U := UU nD τ) (Lvl := ℕ) (Val := Elt F) (τ := τ) ownSem c : sProp 𝕄)
      = semVal ((c : Thread nD τ), copySem) 0 := by
  unfold Pipeline.ownSems0; rw [bigSep_W0]

/-- The launch element: the pipeline library's at the staging cell; no counter drawn yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

/-- No core owes another anything: no level is assigned. -/
abbrev L : GSem nD τ sig → Finset Unit := fun _ => ∅
abbrev lv : GSem nD τ sig → Unit → ℕ := fun _ _ => 0

/-- What rides beside the buffers: the core's duties, none. -/
abbrev duty (c : Dev nD) : sProp 𝕄 := iprop(∃ W, owes (c : Thread nD τ) (0 : CellTallies nD τ sig Unit) W)

/-! ## The segments -/

/-- The host stretch: the copy, over the unscoped buffers. -/
def hostSeg : Pipeline.HostSeg (Name := ℕ) (U := UU nD τ) (pcfgs (F := F)) defs₀ 𝒱₀ L lv :=
  Pipeline.HostSeg.ofOps _ _ _ _ _ openRefs hostOps0
    (fun op h => bufs_open op ((List.forall_iff_forall_mem.mp hostOps0_sub) op h))
    (by intro op h; obtain rfl : op = StableHlo.unary main_arg0 main_v0 id := by simpa using h
        rfl)
    (atLaunch m ρ) duty

/-- What the region leaves for the end: `value` at the pipeline's final contents, `cache` and the index array as they
    entered, the result's buffer at `result`. -/
abbrev atEnd (c : Dev nD) : sProp 𝕄 :=
  iprop((dats m ρ hfit 0 c).arrays ((dats m ρ hfit 0 c).arrAt · (Pipeline.pin (pcfgs (F := F)) (adm m) 0).N)
    ∗ (((c : Thread nD τ).loc main_arg0) ↦{fullShare} atEntry m ρ c main_arg0)
    ∗ holds c (Memref.whole main_arg2) (m ((c : Thread nD τ).loc main_arg2))
    ∗ holds c (Memref.whole main_v0) (result m ρ hfit c))

/-! ## The table at the region's entry -/

/-- The index array reaches the region as launched: the table the pipeline is pinned at. -/
theorem entry_tab (c : Dev nD) : (fun k => atEntry m ρ c (pre0.ref k)) = tab m := by
  obtain rfl : c = 0 := Subsingleton.elim _ _
  funext k
  exact atEntry_arg m ρ 0 (pre0.ref k) (by revert k; decide)

omit [FloatOps F] in
/-- Holding the (one) table is holding the index array's buffer. -/
theorem prefHeld_tab (c : Dev nD) :
    (Pipeline.prefHeld (Ix := Unit) (Name := ℕ) (U := UU nD τ) (Lvl := ℕ) pre0 c (fun _ => fullShare) (tab m) : sProp 𝕄)
      = holds c (Memref.whole main_arg2) (m ((c : Thread nD τ).loc main_arg2)) := by
  obtain rfl : c = 0 := Subsingleton.elim _ _
  unfold Pipeline.prefHeld; rw [bigSep_W0]; rfl

/-- The unscoped buffers that are not `value`: the table, `cache`, the result's buffer. -/
theorem rest_listed (c : Dev nD) :
    (Pipeline.unscopedRest (Ix := Unit) (Name := ℕ) (U := UU nD τ) (Lvl := ℕ) spec0 c (atEntry m ρ c) : sProp 𝕄)
      = iprop(holds c (Memref.whole main_arg2) (m ((c : Thread nD τ).loc main_arg2))
          ∗ (((c : Thread nD τ).loc main_arg0) ↦{fullShare} atEntry m ρ c main_arg0)
          ∗ (((c : Thread nD τ).loc main_v0) ↦{fullShare} atEntry m ρ c main_v0)) := by
  rw [Pipeline.unscopedRest_split preFacts0 c (atEntry m ρ c), unscopedRestP0_eq, entry_tab, prefHeld_tab]

set_option backward.isDefEq.respectTransparency.types false in
/-- The region: the decided layout, the body's semaphore, the body obligation; its entry sorts the buffers the host
    stretch left — `value` to the pipeline, the table to the table's place, the result's buffer and the semaphore
    into the invariant, `cache` past the region —, its exit gathers them again. -/
def regionSeg : Pipeline.RegionSeg (pcfgs (F := F)) (adm m) (dats m ρ hfit) () defs₀ 𝒱₀ L lv 0 where
  win := (launch0 (F := F)).win.to₀
  block_pos := (launch0 (F := F)).block_pos
  stage_whole := (launch0 (F := F)).stage_whole
  K := Fin 1
  osem := ownSem
  ho := ownSem_facts
  hbody c := (body_obligation m ρ hfit c).loose
  hwaits := Pipeline.hwaits_of_owed_zero _ _ _ _ L lv 0 fun _ _ => rfl
  pre c := iprop(StableHlo.held (c : Thread nD τ) openRefs (StableHlo.after hostOps0 (atLaunch m ρ c)) ∗ duty c)
  post c := iprop(atEnd m ρ hfit c ∗ duty c)
  X c := iprop(holds c (Memref.whole main_v0) (atEntry m ρ c main_v0) ∗ semVal ((c : Thread nD τ), copySem) 0)
  Y c := iprop(holds c (Memref.whole main_v0) (result m ρ hfit c) ∗ holds c (Memref.whole main_arg2) (m ((c : Thread nD τ).loc main_arg2)))
  Z c := ((c : Thread nD τ).loc main_arg0) ↦{fullShare} atEntry m ρ c main_arg0
  hentry c := by
    rw [show StableHlo.held (c : Thread nD τ) openRefs (StableHlo.after hostOps0 (atLaunch m ρ c)) = unscopedBufs c (atEntry m ρ c)
      from (unscopedBufs_eq_held c _).symm, ownSems0_one]
    have hsort := (Pipeline.arrays_of_unscopedBufs (pcfgs (F := F)) (adm m) (dats m ρ hfit) (launch0 (F := F)).win (launch0 (F := F)).arr_whole c
      ((dats m ρ hfit 0 c).share_full fun _ => rfl) (atEntry m ρ c) fun _ => rfl).trans
        (sep_mono .rfl (Entails.of_eq (rest_listed m ρ c)))
    iintro ⟨⟨Hbufs, Hduty⟩, Hsem, -⟩
    ihave H := hsort $$ Hbufs
    icases H with ⟨Hval, Htab, Hcache, Hres⟩
    imodintro
    isplitl [Hval]; · iexact Hval
    isplitl [Htab]; · rw [show ((adm m 0).1 : pre0.Contents (Elt F)) = tab m from rfl, prefHeld_tab]; iexact Htab
    isplitl [Hduty]
    · unfold Pipeline.Dat.owesAt Pipeline.owesWithin
      icases Hduty with ⟨%W, Hduty⟩; iexists W; isplitr; · ipureintro; exact fun _ _ => Or.inl trivial
      iexact Hduty
    isplitl [Hres Hsem]
    · isplitl [Hres]; · iexact Hres
      iexact Hsem
    iexact Hcache
  hin c := by
    rw [show (dats m ρ hfit 0 c).Φ 0 = inv m c (atEntry m ρ c main_v0) from rfl,
      show ((adm m 0).1 : pre0.Contents (Elt F)) = tab m from rfl, prefHeld_tab]
    unfold inv
    iintro ⟨⟨Hres, Hsem⟩, Htab, Hrest⟩
    isplitl [Hres]; · iexact Hres
    isplitl [Htab]; · iexact Htab
    isplitl [Hsem]; · iexact Hsem
    iexact Hrest
  hout c := by
    rw [ownSems0_one, show (dats m ρ hfit 0 c).Φ (Fin.last (Pipeline.pin (pcfgs (F := F)) (adm m) 0).N) = inv m c (result m ρ hfit c) from rfl]
    unfold inv
    iintro ⟨Hres, Htab, Hsem, Hrest⟩
    isplitl [Hres Htab]
    · isplitl [Hres]; · iexact Hres
      iexact Htab
    isplitl [Hsem]; · iexact Hsem
    iexact Hrest
  hexit c := by
    iintro ⟨Hval, Hduty, ⟨Hres, Htab⟩, Hcache⟩
    imodintro
    isplitr [Hduty]
    · isplitl [Hval]; · iexact Hval
      isplitl [Hcache]; · iexact Hcache
      isplitl [Htab]; · iexact Htab
      iexact Hres
    · unfold Pipeline.Dat.owesAt Pipeline.owesWithin
      icases Hduty with ⟨%W, -, Hduty⟩; iexists W; iexact Hduty

/-! ## The run -/

/-- @main as its two segments. -/
abbrev segs : List (Pipeline.Seg (pcfgs (F := F)) (adm m) (dats m ρ hfit) () defs₀ 𝒱₀ L lv) :=
  [.host (hostSeg m ρ), .region (regionSeg m ρ hfit)]

/-- `value`'s array is an input of the pipeline: it ends as it entered, which is as launched. -/
theorem value_kept (c : Dev nD) :
    (dats m ρ hfit 0 c).arrAt 0 (Pipeline.pin (pcfgs (F := F)) (adm m) 0).N = m ((c : Thread nD τ).loc main_arg1) :=
  ((dats m ρ hfit 0 c).arrAt_in 0 rfl _).trans (atEntry_arg m ρ c main_arg1 (by decide))

/-- What the run establishes of the final memory: the result's buffer at `result`, every argument as launched. -/
def Final : PUnit × MemSt nD τ sig (Elt F) → Prop := fun r =>
  ∀ c : Dev nD, r.2.mem ((c : Thread nD τ).loc main_v0) = result m ρ hfit c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
/-- From any memory with zero counters whose start row fits: every weakly fair execution of @main on the
    TensorCore terminates, nothing faulting, in a state satisfying `Final`. -/
theorem run_main : θ_run defs (onTc (τ := τ) (main (F := F))) (s₀ m ρ) (Final m ρ hfit) :=
  Pipeline.θ_run_regions_kit (pcfgs (F := F)) (adm m) (dats m ρ hfit) () (cellOf_inj (adm m)) EP defs₀ 𝒱₀ L lv m ρ main (segs m ρ hfit)
    (fun c Q => by rw [main_segs (adm m) (dats m ρ hfit) () 𝒱₀ L lv (hostSeg m ρ) (regionSeg m ρ hfit) rfl c])
    (by simp only [Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨Hpipe, -⟩
      imodintro
      isplitl [Hpipe]; · iexact Hpipe
      have hnone : (BI.emp : sProp 𝕄) ⊢ bigSep Finset.univ (fun _ : Dev nD => (BI.emp : sProp 𝕄)) := by
        rw [BI.bigSep_emp_const]
      iapply hnone; iempintro)
    (T₀ := fun c => iprop(StableHlo.held (c : Thread nD τ) openRefs (atLaunch m ρ c) ∗ duty c)) (Tₙ := atEnd m ρ hfit)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) openRefs (atLaunch m ρ c)
        from unscopedBufs_eq_held c (atLaunch m ρ c)]
      iintro ⟨⟨Hbufs, -, Hduty, -, -, -⟩, -⟩
      imodintro
      isplitl [Hbufs]; · iexact Hbufs
      iexists ∅; iexact Hduty)
    (QY := fun c s => s.mem ((c : Thread nD τ).loc main_v0) = result m ρ hfit c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [atEnd]; rw [atEntry_arg m ρ c main_arg0 (by decide)]
      iintro ⟨⟨Hval, Hcache, Htab, Hres⟩, HSI⟩
      icombine HSI Hcache gives %hcache
      icombine HSI Htab gives %htab
      icombine HSI Hres gives %hres
      ihave Hr := (Pipeline.arrays_read (pcfgs (F := F)) (adm m) (dats m ρ hfit) (launch0 (F := F)).arr_whole c
        ((dats m ρ hfit 0 c).share_full fun _ => rfl) _ s') $$ [Hval HSI]
      · isplitl [Hval] <;> iassumption
      icases Hr with ⟨%hval, HSI⟩
      imodintro
      isplitr
      · ipureintro
        exact ⟨Buf.eq_of_forall_mem_univ hres, Buf.eq_of_forall_mem_univ hcache, (hval 0).trans (value_kept m ρ hfit c),
          Buf.eq_of_forall_mem_univ htab⟩
      iexact HSI)
    (hQ := fun _ h => h)

end Cert.KernelIdeal.Scatter

end
-- ==== Proof.KernelIdeal.Value.lean ====
/-
  The kernel's result in terms of the launch memory.

  `result` is stated over what the region finds: the result's buffer as the host copy left it, and
  `value`'s block as staged. The copy put `cache` there, and the window's one block is the whole of
  `value` (block index 0 on every axis, block size the array's), so the result is `cache` with the box
  of `value`'s shape at offsets `(0, s, 0)` replaced by `value`.
-/
import proofs.«424435_j55800215110244_1_alg».proof.Proof.KernelIdeal.Fits
import proofs.«424435_j55800215110244_1_alg».proof.Proof.KernelIdeal.Run

namespace Cert.KernelIdeal.Scatter

open Cert.KernelIdeal Cert.KernelIdeal.Gen

open Idealize.ShloMosaic Idealize.ShloMosaic.TcCoe

variable {F : FTy → Type} [FloatOps F]

variable (m : (ℓ : Loc nD τ sig) → Buf (Elt F) ℓ) (ρ : Dev nD → PrngReg) (hfit : StartFits m)

/-- The window's one block is the whole array: reading through it reads the array. -/
theorem staged_eq (c : Dev nD) : staged m ρ c = m ((c : Thread nD τ).loc main_arg1) := by
  funext x
  show atEntry m ρ c main_arg1 _ = m ((c : Thread nD τ).loc main_arg1) x
  rw [atEntry_arg m ρ c main_arg1 (by decide)]
  congr 1
  funext a; apply Fin.ext
  fin_cases a <;> (show 0 * _ + 1 * _ = _; omega)

/-- The offsets the body computes from the start row `s` are `(0, s, 0)`. -/
theorem off_eq (w : BitVec 32) : k0_off1 w = (![0, w.toNat, 0] : Fin 3 → Nat) := rfl

/-- The result in terms of the launch memory. -/
theorem result_eq (c : Dev nD) (y : S1.Idx)
    (hfits : S8x4096x1024.Slices (![0, (m ((c : Thread nD τ).loc main_arg2) y).toNat, 0] : Fin 3 → Nat) S8x128x1024) :
    result m ρ hfit c = updateSlice (s := S8x4096x1024) (u := S8x128x1024) (m ((c : Thread nD τ).loc main_arg0)) (m ((c : Thread nD τ).loc main_arg1))
      (![0, (m ((c : Thread nD τ).loc main_arg2) y).toNat, 0] : Fin 3 → Nat) hfits := by
  unfold result
  rw [atEntry_res]
  exact updateSlice_congr _ (staged_eq m ρ c) (by rw [off_eq, show startAt m c = m ((c : Thread nD τ).loc main_arg2) y from startWord_eq c _ y]) _ _

end Cert.KernelIdeal.Scatter
-- ==== Proof.RefValue.lean ====
/-
  The reference's result as a slice write at the start row.

  The reference is `dynamic_update_slice(cache, value, (0, s', 0))` with `s' = s + 4096` when `s < 0` and
  `s` otherwise, each start then clamped so that the update fits. For a start row `0 ≤ s ≤ 3968` nothing is
  adjusted on any axis — the first and last axes are written whole from 0, the middle one starts at `s` —,
  so the result is `cache` with the box of `value`'s shape at offsets `(0, s, 0)` replaced by `value`.
-/
import proofs.«424435_j55800215110244_1_alg».proof.Proof.Gen.ReferenceIdeal.Read
import Idealize.ShloMosaic.Lib.Pipeline.Value
import Idealize.ShloMosaic.Lib.Affine

namespace Cert.ReferenceIdeal.SliceWrite

open Cert.ReferenceIdeal Cert.ReferenceIdeal.Gen Idealize.ShloMosaic

variable {F : FTy → Type} [FloatOps F]

instance : Subsingleton S1.Idx := ⟨fun a b => funext fun d => by
  fin_cases d; exact Fin.ext ((Nat.lt_one_iff.mp (a 0).isLt).trans (Nat.lt_one_iff.mp (b 0).isLt).symm)⟩

/-- The start on the leading axis, `select (0 < 0) (0 + 8) 0`, is 0. -/
theorem start_outer (i : S_.Idx) : (Read.val_main_v3 (F := F) i).toInt = 0 := by
  rw [show Read.val_main_v3 (F := F) i = 0#32 from rfl]; rfl

/-- The start on the trailing axis, `select (0 < 0) (0 + 1024) 0`, is 0. -/
theorem start_inner (i : S_.Idx) : (Read.val_main_v9 (F := F) i).toInt = 0 := by
  rw [show Read.val_main_v9 (F := F) i = 0#32 from rfl]; rfl

/-- The start on the row axis, `select (s < 0) (s + 4096) s`, is `s` for a word `s` at most 3968. -/
theorem start_rows (x2 : (⟨S1, .i32⟩ : BufTy).Contents (Elt F)) (y : S1.Idx) (hle : (x2 y).toNat ≤ 3968) (i : S_.Idx) :
    (Read.val_main_v6 (F := F) x2 i).toInt = ((x2 y).toNat : Int) := by
  have hword : Read.val_main_v0 (F := F) x2 i = x2 y := by
    unfold Read.val_main_v0 shapeCast; exact congrArg x2 (Subsingleton.elim _ _)
  have hsign : (x2 y).toInt = ((x2 y).toNat : Int) := BitVec.toInt_eq_toNat_of_lt (by omega)
  have hnonneg : IntOp.cmpi .slt (x2 y) (0#32) ≠ 1#1 := fun h => by
    have := IntOp.cmpi_slt.1 h
    rw [hsign, show (0#32 : BitVec 32).toInt = 0 from by decide] at this; omega
  rw [Read.val_main_v6_apply, Read.val_main_v4_apply, Read.val_main_c_4_apply, hword]
  unfold Scalar.select
  rw [if_neg (show ¬ (IntOp.cmpi .slt (x2 y) (0#32) = 1) from hnonneg), hsign]

/-- The reference's result, for a start row at most 3968 (read unsigned): the slice write at `(0, s, 0)`. -/
theorem value_eq (x0 : (⟨S8x4096x1024, .f32⟩ : BufTy).Contents (Elt F)) (x1 : (⟨S8x128x1024, .f32⟩ : BufTy).Contents (Elt F))
    (x2 : (⟨S1, .i32⟩ : BufTy).Contents (Elt F)) (y : S1.Idx) (hle : (x2 y).toNat ≤ 3968)
    (hfits : S8x4096x1024.Slices (![0, (x2 y).toNat, 0] : Fin 3 → Nat) S8x128x1024) :
    Read.val_main_v10 (F := F) x0 x1 x2 = updateSlice x0 x1 (![0, (x2 y).toNat, 0] : Fin 3 → Nat) hfits := by
  unfold Read.val_main_v10
  refine Host.dynamicUpdateSlice_eq_updateSlice x0 x1 _ _ _ (fun a => ?_) hfits
  fin_cases a
  · -- the leading axis: start 0, and 8 − 8 = 0 rows of slack
    show (min (max (Read.val_main_v3 (F := F) (Shape.Idx.first h_S_)).toInt 0) ((8 - 8 : Nat) : Int)).toNat = 0
    rw [start_outer]; rfl
  · -- the row axis: start `s`, inside `[0, 4096 − 128]`
    show (min (max (Read.val_main_v6 (F := F) x2 (Shape.Idx.first h_S_)).toInt 0) ((4096 - 128 : Nat) : Int)).toNat = (x2 y).toNat
    rw [start_rows x2 y hle]; omega
  · -- the trailing axis: start 0, and 1024 − 1024 = 0 columns of slack
    show (min (max (Read.val_main_v9 (F := F) (Shape.Idx.first h_S_)).toInt 0) ((1024 - 1024 : Nat) : Int)).toNat = 0
    rw [start_inner]; rfl

end Cert.ReferenceIdeal.SliceWrite
-- ==== Proof.lean ====
/-
  The certificate of the in-place slice write `cache[:, s : s + 128, :] = value` against
  `dynamic_update_slice(cache, value, (0, s, 0))`, under the precondition that the two float arrays are
  finite and the start row satisfies `0 ≤ s ≤ 4096 − 128`.

  The kernel: @main copies `cache` into the result's buffer, and the one-point region's body reads `s` from
  the prefetched index array and copies its staged block — the whole of `value` — into rows `s … s + 127` of that
  buffer by one transfer, waited for at once. The body's side condition `s + 128 ≤ 4096` is what the precondition
  says of `s`. The run (one theorem for any float instance, proved once for each printed program): it
  terminates, every argument ends as launched, and the result's buffer holds `cache` with the box of `value`'s
  shape at offsets `(0, s, 0)` replaced by `value`. The three frames are that run with the result dropped (the
  reference's: its own run). The reference clamps its start into `[0, 3968]` after adding 4096 to a negative one;
  inside the precondition's range neither adjustment moves it, so its result is the same slice write; no
  arithmetic on the extended reals is involved, the two results are the same selection of input elements.
  The idealization rewrote nothing, so `preserves` has no conjunct.
-/
import proofs.«424435_j55800215110244_1_alg».proof.Defs
import proofs.«424435_j55800215110244_1_alg».proof.Proof.Gen.Kernel
import proofs.«424435_j55800215110244_1_alg».proof.Proof.Gen.KernelIdeal
import proofs.«424435_j55800215110244_1_alg».proof.Proof.Gen.ReferenceIdeal
import proofs.«424435_j55800215110244_1_alg».proof.Proof.Gen.Pre_finite_inputs
import proofs.«424435_j55800215110244_1_alg».proof.Proof.Gen.ReferenceIdeal.Run
import proofs.«424435_j55800215110244_1_alg».proof.Proof.Gen.ReferenceIdeal.Read
import proofs.«424435_j55800215110244_1_alg».proof.Proof.Kernel.Run
import proofs.«424435_j55800215110244_1_alg».proof.Proof.Kernel.Fits
import proofs.«424435_j55800215110244_1_alg».proof.Proof.KernelIdeal.Value
import proofs.«424435_j55800215110244_1_alg».proof.Proof.RefValue

noncomputable section

namespace Cert.Proof

open Idealize.ShloMosaic Idealize.ShloMosaic.TcCoe Idealize.SL.Sem

/-- The word-level kernel runs and leaves its arguments as they were. -/
theorem frame_kernel : Cert.frame_Kernel := fun m ρ hpre =>
  (θ_run Cert.Kernel.defs _ _).mono (fun _ h c => ⟨(h c).2.1, (h c).2.2.1, (h c).2.2.2⟩)
    (Cert.Kernel.Scatter.run_main (F := Bits) m ρ (Cert.Kernel.Scatter.startFits_of_pre m hpre))

/-- So does its idealization. -/
theorem frame_kernelIdeal : Cert.frame_KernelIdeal := fun m ρ hpre =>
  (θ_run Cert.KernelIdeal.defs _ _).mono (fun _ h c => ⟨(h c).2.1, (h c).2.2.1, (h c).2.2.2⟩)
    (Cert.KernelIdeal.Scatter.run_main (F := Ideal) m ρ (Cert.KernelIdeal.Scatter.startFits_of_pre m hpre))

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with `cache` overwritten by `value` on rows `s … s + 127`. -/
theorem algebraic : Cert.algebraic_KernelIdeal_ReferenceIdeal := by
  intro m ρ m' ρ' hpre hagree
  have hfit := Cert.KernelIdeal.Scatter.startFits_of_pre m hpre
  refine ⟨fun c => Cert.KernelIdeal.Scatter.result m ρ hfit c,
    (θ_run Cert.KernelIdeal.defs _ _).mono (fun _ h => h) (Cert.KernelIdeal.Scatter.run_main (F := Ideal) m ρ hfit), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq (F := Ideal) _ _ _).trans ?_
  rw [(hagree c).1, (hagree c).2.1, (hagree c).2.2]
  -- the start row, and that it fits
  have y : Cert.KernelIdeal.S1.Idx := fun a => ⟨0, by fin_cases a; exact Nat.one_pos⟩
  have hle := Cert.StartRow.toNat_le _ _ _ (hpre c) y
  have hfits : Cert.KernelIdeal.S8x4096x1024.Slices
      (![0, (m ((c : Thread Cert.KernelIdeal.nD Cert.KernelIdeal.τ).loc Cert.KernelIdeal.main_arg2) y).toNat, 0] : Fin 3 → Nat)
      Cert.KernelIdeal.S8x128x1024 := ⟨rfl, Cert.KernelIdeal.Scatter.fits_of_le _ hle⟩
  exact (Cert.ReferenceIdeal.SliceWrite.value_eq _ _ _ y hle hfits).trans
    (Cert.KernelIdeal.Scatter.result_eq m ρ hfit c y hfits).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
